-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S6144x4096 : Shape := ⟨2, ![6144, 4096]⟩
abbrev S6144 : Shape := ⟨1, ![6144]⟩
abbrev S192x4096 : Shape := ⟨2, ![192, 4096]⟩
abbrev S4096x64 : Shape := ⟨2, ![4096, 64]⟩
abbrev S1024x64 : Shape := ⟨2, ![1024, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S6144x4096 : S_.BroadcastsInDim S6144x4096 (![] : Fin 0 → Fin S6144x4096.rank)
  reducesTo_S6144x4096_S_d0_1 : S6144x4096.ReducesTo [0, 1] S_
  bcast_S_S6144 : S_.BroadcastsInDim S6144 (![] : Fin 0 → Fin S6144.rank)
  reducesTo_S6144_S_d0 : S6144.ReducesTo [0] S_
  bcast_S_S192x4096 : S_.BroadcastsInDim S192x4096 (![] : Fin 0 → Fin S192x4096.rank)
  reducesTo_S192x4096_S_d0_1 : S192x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S4096x64 .f32) (main_arg5 : FVec F S1024x64 .f32) (main_arg6 : FVec F S1024x64 .f32) (main_v13 : IVec S_ 1) (main_v16 : IVec S192x4096 1) : IVec S_ 1 :=
  let main_c_5 : IVec S_ 1 := constantI S_ 1 1#1
  let main_v17 : IVec S_ 1 := (fun x v => Host.reduce IntOp.andi x v reducesTo_S192x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S1024x64 .f32 := Host.absf main_arg6
  let main_cst_10 : FVec F S_ .f32 := constant S_ .f32 0x7F800000#32
  let main_v30 : FVec F S1024x64 .f32 := broadcastInDim S1024x64 ![] bcast_S_S1024x64 main_cst_10
  let main_v31 : IVec S1024x64 1 := cmpf .olt main_v29 main_v30
  let main_c_11 : IVec S_ 1 := constantI S_ 1 1#1
  let main_v32 : IVec S_ 1 := (fun x v => Host.reduce IntOp.andi x v reducesTo_S1024x64_S_d0_1 h_S_) main_v31 main_c_11
  let main_v33 : IVec S_ 1 := andi main_v28 main_v32
  main_v33

def fn {F : FTy → Type} [FloatOps F] (main_arg0 : FVec F S16384x4096 .f32) (main_arg1 : FVec F S6144x4096 .f32) (main_arg2 : FVec F S6144 .f32) (main_arg3 : FVec F S192x4096 .f32) (main_arg4 : FVec F S4096x64 .f32) (main_arg5 : FVec F S1024x64 .f32) (main_arg6 : FVec F S1024x64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S6144x4096 .f32 := Host.absf main_arg1
  let main_cst_0 : FVec F S_ .f32 := constant S_ .f32 0x7F800000#32
  let main_v5 : FVec F S6144x4096 .f32 := broadcastInDim S6144x4096 ![] bcast_S_S6144x4096 main_cst_0
  let main_v6 : IVec S6144x4096 1 := cmpf .olt main_v4 main_v5
  let main_c_1 : IVec S_ 1 := constantI S_ 1 1#1
  let main_v7 : IVec S_ 1 := (fun x v => Host.reduce IntOp.andi x v reducesTo_S6144x4096_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S192x4096 .f32 := Host.absf main_arg3
  let main_cst_4 : FVec F S_ .f32 := constant S_ .f32 0x7F800000#32
  let main_v15 : FVec F S192x4096 .f32 := broadcastInDim S192x4096 ![] bcast_S_S192x4096 main_cst_4
  let main_v16 : IVec S192x4096 1 := cmpf .olt main_v14 main_v15
  fn_part1 (F := F) main_arg4 main_arg5 main_arg6 main_v13 main_v16
-- ==== Kernel.lean ====
abbrev S16384x4096 : Shape := ⟨2, ![16384, 4096]⟩
abbrev S6144x4096 : Shape := ⟨2, ![6144, 4096]⟩
abbrev S6144 : Shape := ⟨1, ![6144]⟩
abbrev S192x4096 : Shape := ⟨2, ![192, 4096]⟩
abbrev S4096x64 : Shape := ⟨2, ![4096, 64]⟩
abbrev S1024x64 : Shape := ⟨2, ![1024, 64]⟩
abbrev S64x4096 : Shape := ⟨2, ![64, 4096]⟩
abbrev S4096x4096 : Shape := ⟨2, ![4096, 4096]⟩
abbrev S1024x4096 : Shape := ⟨2, ![1024, 4096]⟩
abbrev S4096x6144 : Shape := ⟨2, ![4096, 6144]⟩
abbrev S1x6144 : Shape := ⟨2, ![1, 6144]⟩
abbrev S16384x6144 : Shape := ⟨2, ![16384, 6144]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 20
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S6144x4096, .f32⟩
  | .hbm, ⟨2, _⟩ => ⟨S6144, .f32⟩
  | .hbm, ⟨3, _⟩ => ⟨S192x4096, .f32⟩
  | .hbm, ⟨4, _⟩ => ⟨S4096x64, .f32⟩
  | .hbm, ⟨5, _⟩ => ⟨S1024x64, .f32⟩
  | .hbm, ⟨6, _⟩ => ⟨S1024x64, .f32⟩
  | .hbm, ⟨7, _⟩ => ⟨S64x4096, .f32⟩
  | .hbm, ⟨8, _⟩ => ⟨S4096x4096, .f32⟩
  | .hbm, ⟨9, _⟩ => ⟨S64x4096, .f32⟩
  | .hbm, ⟨10, _⟩ => ⟨S1024x4096, .f32⟩
  | .hbm, ⟨11, _⟩ => ⟨S64x4096, .f32⟩
  | .hbm, ⟨12, _⟩ => ⟨S1024x4096, .f32⟩
  | .hbm, ⟨13, _⟩ => ⟨S6144x4096, .f32⟩
  | .hbm, ⟨14, _⟩ => ⟨S6144x4096, .f32⟩
  | .hbm, ⟨15, _⟩ => ⟨S4096x6144, .f32⟩
  | .hbm, ⟨16, _⟩ => ⟨S16384x4096, .bf16⟩
  | .hbm, ⟨17, _⟩ => ⟨S4096x6144, .bf16⟩
  | .hbm, ⟨18, _⟩ => ⟨S1x6144, .f32⟩
  | .hbm, ⟨19, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S192x4096_S64x4096_0_0 : S192x4096.Slices ![0, 0] S64x4096
  slices_S192x4096_S64x4096_64_0 : S192x4096.Slices ![64, 0] S64x4096
  slices_S192x4096_S64x4096_128_0 : S192x4096.Slices ![128, 0] S64x4096
  concatenates_S4096x4096_S1024x4096_S1024x4096_S6144x4096_d0 : Shape.Concatenates [S4096x4096, S1024x4096, S1024x4096] S6144x4096 0
  transposes_S6144x4096_S4096x6144_1_0 : S6144x4096.Transposes [1, 0] S4096x6144
  bitsLt_bf16_f32 : FTy.bits .bf16 < FTy.bits .f32
  shapeCasts_S6144_S1x6144 : S6144.ShapeCasts S1x6144
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S4096x64_S64x4096_S4096x4096_1_0_0_1_n_n_wf : DotDims.WF S4096x64 S64x4096 S4096x4096 [1] [0] [0] [1] [] []
  dot_S1024x64_S64x4096_S1024x4096_1_0_0_1_n_n_wf : DotDims.WF S1024x64 S64x4096 S1024x4096 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .bf16 = 32 ∨ (Rect.block (s := S16384x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x6144.size a
  hwx0_1 : ∀ i : grid0.Coords, EltTy.bits .bf16 = 32 ∨ (Rect.block (s := S4096x6144) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x6144.size a
  hwx0_3 : ∀ i : grid0.Coords, EltTy.bits .f32 = 32 ∨ (Rect.block (s := S16384x6144) S1024x512.size (cc0_transform_3 i) (hinb0_3 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S1024x64_S64x4096_S1024x4096_1_0_0_1_n_n : DotDims S1024x64 S64x4096 S1024x4096 where
  lhsContracting := [1]
  rhsContracting := [0]
  lhsNonContracting := [0]
  rhsNonContracting := [1]
  lhsBatch := []
  rhsBatch := []
  wf := dot_S1024x64_S64x4096_S1024x4096_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v9) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S6144x4096 : Shape := ⟨2, ![6144, 4096]⟩
abbrev S6144 : Shape := ⟨1, ![6144]⟩
abbrev S192x4096 : Shape := ⟨2, ![192, 4096]⟩
abbrev S4096x64 : Shape := ⟨2, ![4096, 64]⟩
abbrev S1024x64 : Shape := ⟨2, ![1024, 64]⟩
abbrev S16384x6144 : Shape := ⟨2, ![16384, 6144]⟩
abbrev S1x6144 : Shape := ⟨2, ![1, 6144]⟩
abbrev S16384x192 : Shape := ⟨2, ![16384, 192]⟩
abbrev S16384x64 : Shape := ⟨2, ![16384, 64]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S6144x4096, .f32⟩
  | .hbm, ⟨2, _⟩ => ⟨S6144, .f32⟩
  | .hbm, ⟨3, _⟩ => ⟨S192x4096, .f32⟩
  | .hbm, ⟨4, _⟩ => ⟨S4096x64, .f32⟩
  | .hbm, ⟨5, _⟩ => ⟨S1024x64, .f32⟩
  | .hbm, ⟨6, _⟩ => ⟨S1024x64, .f32⟩
  | .hbm, ⟨7, _⟩ => ⟨S16384x6144, .f32⟩
  | .hbm, ⟨8, _⟩ => ⟨S1x6144, .f32⟩
  | .hbm, ⟨9, _⟩ => ⟨S16384x6144, .f32⟩
  | .hbm, ⟨10, _⟩ => ⟨S16384x6144, .f32⟩
  | .hbm, ⟨11, _⟩ => ⟨S16384x192, .f32⟩
  | .hbm, ⟨12, _⟩ => ⟨S16384x64, .f32⟩
  | .hbm, ⟨13, _⟩ => ⟨S16384x4096, .f32⟩
  | .hbm, ⟨14, _⟩ => ⟨S16384x64, .f32⟩
  | .hbm, ⟨15, _⟩ => ⟨S16384x1024, .f32⟩
  | .hbm, ⟨16, _⟩ => ⟨S16384x64, .f32⟩
  | .hbm, ⟨17, _⟩ => ⟨S16384x1024, .f32⟩
  | .hbm, ⟨18, _⟩ => ⟨S16384x6144, .f32⟩
  | .hbm, ⟨19, _⟩ => ⟨S16384x6144, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S16384x6144_0_1 : S1x6144.BroadcastsInDim S16384x6144 (![0, 1] : Fin 2 → Fin S16384x6144.rank)
  slices_S16384x192_S16384x64_0_0 : S16384x192.Slices ![0, 0] S16384x64
  slices_S16384x192_S16384x64_0_64 : S16384x192.Slices ![0, 64] S16384x64
  slices_S16384x192_S16384x64_0_128 : S16384x192.Slices ![0, 128] S16384x64
  concatenates_S16384x4096_S16384x1024_S16384x1024_S16384x6144_d1 : Shape.Concatenates [S16384x4096, S16384x1024, S16384x1024] S16384x6144 1
  dot_S16384x4096_S6144x4096_S16384x6144_1_1_0_0_n_n_wf : DotDims.WF S16384x4096 S6144x4096 S16384x6144 [1] [1] [0] [0] [] []
  dot_S16384x4096_S192x4096_S16384x192_1_1_0_0_n_n_wf : DotDims.WF S16384x4096 S192x4096 S16384x192 [1] [1] [0] [0] [] []
  dot_S16384x64_S4096x64_S16384x4096_1_1_0_0_n_n_wf : DotDims.WF S16384x64 S4096x64 S16384x4096 [1] [1] [0] [0] [] []
  dot_S16384x64_S1024x64_S16384x1024_1_1_0_0_n_n_wf : DotDims.WF S16384x64 S1024x64 S16384x1024 [1] [1] [0] [0] [] []

variable [Facts₀]

def dot_S16384x4096_S6144x4096_S16384x6144_1_1_0_0_n_n : DotDims S16384x4096 S6144x4096 S16384x6144 where
  lhsContracting := [1]
  rhsContracting := [1]
  lhsNonContracting := [0]
  rhsNonContracting := [0]
  lhsBatch := []
  rhsBatch := []
  wf := dot_S16384x4096_S6144x4096_S16384x6144_1_1_0_0_n_n_wf
def dot_S16384x4096_S192x4096_S16384x192_1_1_0_0_n_n : DotDims S16384x4096 S192x4096 S16384x192 where
  lhsContracting := [1]
  rhsContracting := [1]
  lhsNonContracting := [0]
  rhsNonContracting := [0]
  lhsBatch := []
  rhsBatch := []
  wf := dot_S16384x4096_S192x4096_S16384x192_1_1_0_0_n_n_wf
def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf
def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf

class Facts : Prop extends Facts₀ where

variable [Facts]
-- ==== Proof.FrameBits.lean ====
/-
  The frame of the program: it runs to the end on every weakly fair schedule, faults nowhere, and leaves its seven
  argument arrays as launched; and, for the value claim, what its result array holds when it ends.

  The program is twelve host lines (three slices of A, three products, their stacking, the sum with W, a transpose,
  two narrowings to bf16, a reshape of the bias) and one region on a 16 × 12 grid. Point (i, j) of the grid is handed
  row block i of the narrowed activations (1024 × 4096), column block j of the merged weight (4096 × 512) and of the
  bias row (1 × 512), and stores one 1024 × 512 block of the result: the matrix product into a zero accumulator plus the
  bias row broadcast down the rows. The body loads each input block whole, stores the output block whole, keeps nothing
  between points and names nothing of its own, so the region's proof data says: every input's staging buffer holds its
  block of the array as the region found it (`V`), and the output's buffer holds `outBlock` of the three input blocks.
  None of the seven argument arrays is an array of the region, and no host line writes one.
-/
import proofs.«169632_j49306224558199_1_alg».proof.Proof.Gen.Kernel.Launch
import proofs.«169632_j49306224558199_1_alg».proof.Proof.Gen.Kernel.Skeleton
import proofs.«169632_j49306224558199_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: the launch contents run through the twelve host lines. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is its host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point, whether the point fetches it or the block index
    has not moved since the fetch: for any proof data over `V`'s arrays whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region's proof data -/

/-- A run that ends with every buffer outside the region as the region found it ends with the seven argument
    arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body -/

abbrev rX : Rect S1024x4096 := Rect.unit (s := S1024x4096) ![0, 0] S1024x4096.size Gen.inb_S1024x4096_S1024x4096_0_0
abbrev rW : Rect S4096x512 := Rect.unit (s := S4096x512) ![0, 0] S4096x512.size Gen.inb_S4096x512_S4096x512_0_0
abbrev rB : Rect S1x512 := Rect.unit (s := S1x512) ![0, 0] S1x512.size Gen.inb_S1x512_S1x512_0_0
abbrev rO : Rect S1024x512 := Rect.unit (s := S1024x512) ![0, 0] S1024x512.size Gen.inb_S1024x512_S1024x512_0_0

/-- The output block after the body, from the three input blocks: its one whole-block store. -/
def outBlock (x0 : Vec F S1024x4096 .bf16) (x1 : Vec F S4096x512 .bf16) (x2 : Vec F S1x512 .f32) : Vec F S1024x512 .f32 :=
  View.canon [⟨rO, k0_pay1 (View.ld x0 rX) (View.ld x1 rW) (View.ld x2 rB)⟩]

/-- The one store covers the block. -/
theorem cover_out (p0 : Vec F S1024x512 .f32) (y : S1024x512.Idx) :
    ∃ pc ∈ ([⟨rO, p0⟩] : List (View.Piece (Elt F) S1024x512 .f32)), y ∈ pc.1.set :=
  View.cover_of_tiled [⟨rO, p0⟩] S1024x512.size (by rfl) y

set_option maxHeartbeats 1000000 in
/-- The body on whole staging memrefs, the inputs' at contents `x0 x1 x2` and the output's at anything, returns with
    the inputs' as they were and the output's at `outBlock x0 x1 x2`. -/
theorem sound_kernel (c : Dev nD) (E : Set ℕ) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1x512 .f32) (harg4 : arg4.IsWhole)
    (arg5 : Memref sig .tc .vmem S1024x512 .f32) (harg5 : arg5.IsWhole)
    (x0 : Vec F S1024x4096 .bf16) (x1 : Vec F S4096x512 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- On core `c`: the arrays as the region finds them; after the body at point `t` each input's buffer at its block and
    the output's at `outBlock` of the three input blocks; nothing of the kernel's own, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, with every array of the region at what
    the proof data's blocks make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Region

end
-- ==== Proof.FrameIdeal.lean ====
/-
  The frame of the program: it runs to the end on every weakly fair schedule, faults nowhere, and leaves its seven
  argument arrays as launched; and, for the value claim, what its result array holds when it ends.

  The program is twelve host lines (three slices of A, three products, their stacking, the sum with W, a transpose,
  two narrowings to bf16, a reshape of the bias) and one region on a 16 × 12 grid. Point (i, j) of the grid is handed
  row block i of the narrowed activations (1024 × 4096), column block j of the merged weight (4096 × 512) and of the
  bias row (1 × 512), and stores one 1024 × 512 block of the result: the matrix product into a zero accumulator plus the
  bias row broadcast down the rows. The body loads each input block whole, stores the output block whole, keeps nothing
  between points and names nothing of its own, so the region's proof data says: every input's staging buffer holds its
  block of the array as the region found it (`V`), and the output's buffer holds `outBlock` of the three input blocks.
  None of the seven argument arrays is an array of the region, and no host line writes one.
-/
import proofs.«169632_j49306224558199_1_alg».proof.Proof.Gen.KernelIdeal.Launch
import proofs.«169632_j49306224558199_1_alg».proof.Proof.Gen.KernelIdeal.Skeleton
import proofs.«169632_j49306224558199_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: the launch contents run through the twelve host lines. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is its host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's current staging buffer holds its block at every point, whether the point fetches it or the block index
    has not moved since the fetch: for any proof data over `V`'s arrays whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region's proof data -/

/-- A run that ends with every buffer outside the region as the region found it ends with the seven argument
    arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body -/

abbrev rX : Rect S1024x4096 := Rect.unit (s := S1024x4096) ![0, 0] S1024x4096.size Gen.inb_S1024x4096_S1024x4096_0_0
abbrev rW : Rect S4096x512 := Rect.unit (s := S4096x512) ![0, 0] S4096x512.size Gen.inb_S4096x512_S4096x512_0_0
abbrev rB : Rect S1x512 := Rect.unit (s := S1x512) ![0, 0] S1x512.size Gen.inb_S1x512_S1x512_0_0
abbrev rO : Rect S1024x512 := Rect.unit (s := S1024x512) ![0, 0] S1024x512.size Gen.inb_S1024x512_S1024x512_0_0

/-- The output block after the body, from the three input blocks: its one whole-block store. -/
def outBlock (x0 : Vec F S1024x4096 .bf16) (x1 : Vec F S4096x512 .bf16) (x2 : Vec F S1x512 .f32) : Vec F S1024x512 .f32 :=
  View.canon [⟨rO, k0_pay1 (View.ld x0 rX) (View.ld x1 rW) (View.ld x2 rB)⟩]

/-- The one store covers the block. -/
theorem cover_out (p0 : Vec F S1024x512 .f32) (y : S1024x512.Idx) :
    ∃ pc ∈ ([⟨rO, p0⟩] : List (View.Piece (Elt F) S1024x512 .f32)), y ∈ pc.1.set :=
  View.cover_of_tiled [⟨rO, p0⟩] S1024x512.size (by rfl) y

set_option maxHeartbeats 1000000 in
/-- The body on whole staging memrefs, the inputs' at contents `x0 x1 x2` and the output's at anything, returns with
    the inputs' as they were and the output's at `outBlock x0 x1 x2`. -/
theorem sound_kernel (c : Dev nD) (E : Set ℕ) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1x512 .f32) (harg4 : arg4.IsWhole)
    (arg5 : Memref sig .tc .vmem S1024x512 .f32) (harg5 : arg5.IsWhole)
    (x0 : Vec F S1024x4096 .bf16) (x1 : Vec F S4096x512 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- On core `c`: the arrays as the region finds them; after the body at point `t` each input's buffer at its block and
    the output's at `outBlock` of the three input blocks; nothing of the kernel's own, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, with every array of the region at what
    the proof data's blocks make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Region

end
-- ==== Proof.HostTerms.lean ====
/-
  The three arrays the region is launched on, as functions of the argument arrays: what the host lines before the region compute.

  `lora A Bq Bk Bv` : [6144, 4096] stacks by rows the three products B_q · A[0:64], B_k · A[64:128], B_v · A[128:192];
  `wT` is the merged weight W + lora, transposed to [4096, 6144] and narrowed to bf16; `xT` is x narrowed to bf16;
  `bT` is the bias as one row [1, 6144].
-/
import proofs.«169632_j49306224558199_1_alg».proof.KernelIdeal

noncomputable section

namespace Cert.KernelIdeal.Stage

open Cert.KernelIdeal Idealize.ShloMosaic

variable {F : FTy → Type} [FloatOps F] [Facts]
open Facts₀ Facts

/-- The low-rank update of the weight, its three row bands stacked. -/
def lora (A : (⟨S192x4096, .f32⟩ : BufTy).Contents (Elt F)) (Bq : (⟨S4096x64, .f32⟩ : BufTy).Contents (Elt F))
    (Bk Bv : (⟨S1024x64, .f32⟩ : BufTy).Contents (Elt F)) : (⟨S6144x4096, .f32⟩ : BufTy).Contents (Elt F) :=
  concatenate S6144x4096 0 [⟨S4096x4096, Host.dotGeneral dot_S4096x64_S64x4096_S4096x4096_1_0_0_1_n_n none Bq (extractStridedSlice S64x4096 ![0, 0] A slices_S192x4096_S64x4096_0_0)⟩, ⟨S1024x4096, Host.dotGeneral dot_S1024x64_S64x4096_S1024x4096_1_0_0_1_n_n none Bk (extractStridedSlice S64x4096 ![64, 0] A slices_S192x4096_S64x4096_64_0)⟩, ⟨S1024x4096, Host.dotGeneral dot_S1024x64_S64x4096_S1024x4096_1_0_0_1_n_n none Bv (extractStridedSlice S64x4096 ![128, 0] A slices_S192x4096_S64x4096_128_0)⟩] concatenates_S4096x4096_S1024x4096_S1024x4096_S6144x4096_d0

/-- The merged weight, transposed and narrowed: the region's second operand. -/
def wT (W : (⟨S6144x4096, .f32⟩ : BufTy).Contents (Elt F)) (A : (⟨S192x4096, .f32⟩ : BufTy).Contents (Elt F))
    (Bq : (⟨S4096x64, .f32⟩ : BufTy).Contents (Elt F)) (Bk Bv : (⟨S1024x64, .f32⟩ : BufTy).Contents (Elt F)) :
    (⟨S4096x6144, .bf16⟩ : BufTy).Contents (Elt F) :=
  truncf .bf16 (transpose S4096x6144 [1, 0] (addf W (lora A Bq Bk Bv)) transposes_S6144x4096_S4096x6144_1_0) bitsLt_bf16_f32

/-- The activations narrowed: the region's first operand. -/
def xT (x : (⟨S16384x4096, .f32⟩ : BufTy).Contents (Elt F)) : (⟨S16384x4096, .bf16⟩ : BufTy).Contents (Elt F) :=
  truncf .bf16 x bitsLt_bf16_f32

/-- The bias as one row: the region's third operand. -/
def bT (b : (⟨S6144, .f32⟩ : BufTy).Contents (Elt F)) : (⟨S1x6144, .f32⟩ : BufTy).Contents (Elt F) :=
  shapeCast S1x6144 b shapeCasts_S6144_S1x6144

end Cert.KernelIdeal.Stage

end
-- ==== Proof.Spec.lean ====
/-
  The mathematics both programs compute, as functions of the seven argument arrays read at coordinates.

  Inputs: x : [16384, 4096], W : [6144, 4096], b : [6144], A : [192, 4096] (three stacked bands of 64 rows),
  B_q : [4096, 64], B_k, B_v : [1024, 64]. Output column o lies in one of three bands (o < 4096, o < 5120, the rest);
  its band picks the 64 rows of A it draws from (`off`, `arow`) and the row of B_q, B_k or B_v it multiplies (`bfull`).

  One side first merges the low-rank update into the weight, W'[o, d] = W[o, d] + Σ_r B[o, r] · A[off o + r, d],
  and then computes Σ_d x[s, d] · W'[o, d] + b[o] (`mergedOut`). The other side computes the base product
  Σ_d x[s, d] · W[o, d] + b[o] and adds the low-rank path (Σ_r (Σ_d x[s, d] · A[off o + r, d]) · B[o, r]) (`splitOut`).
  Over the reals the two agree by distributivity and exchanging the two finite sums.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals, and a rank-1 one. -/
abbrev Arr2 (a b : Nat) : Type := (⟨2, ![a, b]⟩ : Shape).Idx → EReal
abbrev Arr1 (a : Nat) : Type := (⟨1, ![a]⟩ : Shape).Idx → EReal

/-- The first of the 64 rows of A that output column `o` draws from: band 0, 1 or 2 of A. -/
def off (o : Fin 6144) : Nat := if o.val < 4096 then 0 else if o.val < 5120 then 64 else 128

theorem off_add_lt (o : Fin 6144) (r : Fin 64) : off o + r.val < 192 := by
  unfold off; split_ifs <;> omega

/-- Row `off o + r` of A. -/
def arow (o : Fin 6144) (r : Fin 64) : Fin 192 := ⟨off o + r.val, off_add_lt o r⟩

/-- The three B matrices stacked: row `o` of B_q, of B_k (from 4096) or of B_v (from 5120). -/
def bfull (Bq : Arr2 4096 64) (Bk Bv : Arr2 1024 64) (o : Fin 6144) (r : Fin 64) : EReal :=
  if h : o.val < 4096 then Bq (ix2 ⟨o.val, h⟩ r)
  else if h' : o.val < 5120 then Bk (ix2 ⟨o.val - 4096, by omega⟩ r)
  else Bv (ix2 ⟨o.val - 5120, by have := o.isLt; omega⟩ r)

/-- The merged weight W'[o, d] = W[o, d] + Σ_r B[o, r] · A[off o + r, d]. -/
def merged (W : Arr2 6144 4096) (A : Arr2 192 4096) (Bq : Arr2 4096 64) (Bk Bv : Arr2 1024 64)
    (o : Fin 6144) (d : Fin 4096) : EReal :=
  W (ix2 o d) + ∑ r : Fin 64, bfull Bq Bk Bv o r * A (ix2 (arow o r) d)

/-- One product with the merged weight, then the bias. -/
def mergedOut (x : Arr2 16384 4096) (W : Arr2 6144 4096) (b : Arr1 6144) (A : Arr2 192 4096)
    (Bq : Arr2 4096 64) (Bk Bv : Arr2 1024 64) (s : Fin 16384) (o : Fin 6144) : EReal :=
  (∑ d : Fin 4096, x (ix2 s d) * merged W A Bq Bk Bv o d) + b (ix1 o)

/-- The base product and bias, plus the low-rank path through x · Aᵀ. -/
def splitOut (x : Arr2 16384 4096) (W : Arr2 6144 4096) (b : Arr1 6144) (A : Arr2 192 4096)
    (Bq : Arr2 4096 64) (Bk Bv : Arr2 1024 64) (s : Fin 16384) (o : Fin 6144) : EReal :=
  ((∑ d : Fin 4096, x (ix2 s d) * W (ix2 o d)) + b (ix1 o))
    + ∑ r : Fin 64, (∑ d : Fin 4096, x (ix2 s d) * A (ix2 (arow o r) d)) * bfull Bq Bk Bv o r

/-- The whole result array of either form, from its value at coordinates. -/
def arrOf (f : Fin 16384 → Fin 6144 → EReal) : Arr2 16384 6144 := fun j => f (j 0) (j 1)

theorem arrOf_ix2 (f : Fin 16384 → Fin 6144 → EReal) (s : Fin 16384) (o : Fin 6144) : arrOf f (ix2 s o) = f s o := rfl

end Cert.Spec

end
-- ==== Proof.StageAt.lean ====
/-
  The three arrays the region is launched on, read at coordinates.

  The second operand at (d, o) is the merged weight W[o, d] + Σ_r B[o, r] · A[off o + r, d]: narrowing is the identity over
  the extended reals, the transpose swaps the coordinates, and the stacked low-rank update at row o is the band of o
  (rows below 4096 from B_q and A's first 64 rows, rows below 5120 from B_k and the next 64, the rest from B_v and the last 64).
  The first operand is x itself, and the third is the bias read at its column.
-/
import proofs.«169632_j49306224558199_1_alg».proof.Proof.HostTerms
import proofs.«169632_j49306224558199_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Stage

open Cert.KernelIdeal Idealize.ShloMosaic Idealize.ShloMosaic.ValueIdx

variable [Facts]
open Facts₀ Facts

/-! ## The first and third operands -/

/-- Narrowing is the identity over the extended reals. -/
theorem xT_apply (x : (⟨S16384x4096, .f32⟩ : BufTy).Contents (Elt Ideal)) (i : S16384x4096.Idx) : xT (F := Ideal) x i = x i := rfl

/-- The bias as one row reads the bias at the column. -/
theorem bT_apply (b : (⟨S6144, .f32⟩ : BufTy).Contents (Elt Ideal)) (o : Fin 6144) : bT (F := Ideal) b (ix2 (0 : Fin 1) o) = b (ix1 o) := by
  unfold bT
  exact shapeCast_a_1a_apply b shapeCasts_S6144_S1x6144 0 o

/-! ## A band of 64 rows of A -/

/-- Rows k .. k + 64 of A, read at (r, d), are A at (k + r, d). -/
theorem band_apply (k : Nat) (A : (⟨S192x4096, .f32⟩ : BufTy).Contents (Elt Ideal)) (h : S192x4096.Slices ![k, 0] S64x4096)
    (r : Fin 64) (d : Fin 4096) (hlt : k + r.val < 192) :
    extractStridedSlice S64x4096 ![k, 0] A h (ix2 r d) = A (ix2 ⟨k + r.val, hlt⟩ d) :=
  extractStridedSlice_apply _ A h _ _ fun a => match a with
    | ⟨0, _⟩ => rfl
    | ⟨1, _⟩ => by show d.val = 0 + d.val; omega

/-! ## The two products: one contracted axis of extent 64, the left operand's columns against the right operand's rows -/

theorem lhs_q_0 (i : S4096x4096.Idx) (q : dot_S4096x64_S64x4096_S4096x4096_1_0_0_1_n_n.contr.Idx) :
    (dot_S4096x64_S64x4096_S4096x4096_1_0_0_1_n_n.lhsIdx i q 0).val = (i 0).val := by
  unfold DotDims.lhsIdx
  rw [dif_neg (show ¬(0 : Fin S4096x64.rank) ∈ dot_S4096x64_S64x4096_S4096x4096_1_0_0_1_n_n.lhsBatch from List.not_mem_nil), dif_pos (show (0 : Fin S4096x64.rank) ∈ dot_S4096x64_S64x4096_S4096x4096_1_0_0_1_n_n.lhsNonContracting from List.mem_singleton.mpr rfl)]
  rfl
theorem lhs_q_1 (i : S4096x4096.Idx) (q : dot_S4096x64_S64x4096_S4096x4096_1_0_0_1_n_n.contr.Idx) :
    (dot_S4096x64_S64x4096_S4096x4096_1_0_0_1_n_n.lhsIdx i q 1).val = (q ⟨0, Nat.one_pos⟩).val :=
  dot_S4096x64_S64x4096_S4096x4096_1_0_0_1_n_n.lhsIdx_val_of_single rfl i q
theorem rhs_q_0 (i : S4096x4096.Idx) (q : dot_S4096x64_S64x4096_S4096x4096_1_0_0_1_n_n.contr.Idx) :
    (dot_S4096x64_S64x4096_S4096x4096_1_0_0_1_n_n.rhsIdx i q 0).val = (q ⟨0, Nat.one_pos⟩).val :=
  dot_S4096x64_S64x4096_S4096x4096_1_0_0_1_n_n.rhsIdx_val_of_single rfl i q
theorem rhs_q_1 (i : S4096x4096.Idx) (q : dot_S4096x64_S64x4096_S4096x4096_1_0_0_1_n_n.contr.Idx) :
    (dot_S4096x64_S64x4096_S4096x4096_1_0_0_1_n_n.rhsIdx i q 1).val = (i 1).val := by
  unfold DotDims.rhsIdx
  rw [dif_neg (show ¬(1 : Fin S64x4096.rank) ∈ dot_S4096x64_S64x4096_S4096x4096_1_0_0_1_n_n.rhsBatch from List.not_mem_nil), dif_pos (show (1 : Fin S64x4096.rank) ∈ dot_S4096x64_S64x4096_S4096x4096_1_0_0_1_n_n.rhsNonContracting from List.mem_singleton.mpr rfl)]
  rfl

/-- The [4096, 64] × [64, 4096] product at (p, d) is Σ_r l[p, r] · R[r, d]. -/
theorem dot_q_apply (l : (⟨S4096x64, .f32⟩ : BufTy).Contents (Elt Ideal)) (R : (⟨S64x4096, .f32⟩ : BufTy).Contents (Elt Ideal))
    (p : Fin 4096) (d : Fin 4096) :
    Host.dotGeneral (F := Ideal) (φ₁ := .f32) (φ₂ := .f32) dot_S4096x64_S64x4096_S4096x4096_1_0_0_1_n_n none l R (ix2 p d)
      = ∑ r : Fin 64, l (ix2 p r) * R (ix2 r d) := by
  simp only [Host.dotGeneral]
  rw [Ideal.dotGeneral_apply, ← Equiv.sum_comp (ValueIdx.contrEquiv1 dot_S4096x64_S64x4096_S4096x4096_1_0_0_1_n_n 64 rfl rfl).symm]
  refine Finset.sum_congr rfl fun k _ => ?_
  have hk := ValueIdx.contrEquiv1_symm_val dot_S4096x64_S64x4096_S4096x4096_1_0_0_1_n_n 64 rfl rfl k
  have el : dot_S4096x64_S64x4096_S4096x4096_1_0_0_1_n_n.lhsIdx (ix2 p d) ((ValueIdx.contrEquiv1 dot_S4096x64_S64x4096_S4096x4096_1_0_0_1_n_n 64 rfl rfl).symm k) = ix2 p k := funext fun a => Fin.ext (by
    match a with
    | ⟨0, _⟩ => exact lhs_q_0 _ _
    | ⟨1, _⟩ => exact (lhs_q_1 _ _).trans hk)
  have er : dot_S4096x64_S64x4096_S4096x4096_1_0_0_1_n_n.rhsIdx (ix2 p d) ((ValueIdx.contrEquiv1 dot_S4096x64_S64x4096_S4096x4096_1_0_0_1_n_n 64 rfl rfl).symm k) = ix2 k d := funext fun a => Fin.ext (by
    match a with
    | ⟨0, _⟩ => exact (rhs_q_0 _ _).trans hk
    | ⟨1, _⟩ => exact rhs_q_1 _ _)
  rw [el, er]

theorem lhs_kv_0 (i : S1024x4096.Idx) (q : dot_S1024x64_S64x4096_S1024x4096_1_0_0_1_n_n.contr.Idx) :
    (dot_S1024x64_S64x4096_S1024x4096_1_0_0_1_n_n.lhsIdx i q 0).val = (i 0).val := by
  unfold DotDims.lhsIdx
  rw [dif_neg (show ¬(0 : Fin S1024x64.rank) ∈ dot_S1024x64_S64x4096_S1024x4096_1_0_0_1_n_n.lhsBatch from List.not_mem_nil), dif_pos (show (0 : Fin S1024x64.rank) ∈ dot_S1024x64_S64x4096_S1024x4096_1_0_0_1_n_n.lhsNonContracting from List.mem_singleton.mpr rfl)]
  rfl
theorem lhs_kv_1 (i : S1024x4096.Idx) (q : dot_S1024x64_S64x4096_S1024x4096_1_0_0_1_n_n.contr.Idx) :
    (dot_S1024x64_S64x4096_S1024x4096_1_0_0_1_n_n.lhsIdx i q 1).val = (q ⟨0, Nat.one_pos⟩).val :=
  dot_S1024x64_S64x4096_S1024x4096_1_0_0_1_n_n.lhsIdx_val_of_single rfl i q
theorem rhs_kv_0 (i : S1024x4096.Idx) (q : dot_S1024x64_S64x4096_S1024x4096_1_0_0_1_n_n.contr.Idx) :
    (dot_S1024x64_S64x4096_S1024x4096_1_0_0_1_n_n.rhsIdx i q 0).val = (q ⟨0, Nat.one_pos⟩).val :=
  dot_S1024x64_S64x4096_S1024x4096_1_0_0_1_n_n.rhsIdx_val_of_single rfl i q
theorem rhs_kv_1 (i : S1024x4096.Idx) (q : dot_S1024x64_S64x4096_S1024x4096_1_0_0_1_n_n.contr.Idx) :
    (dot_S1024x64_S64x4096_S1024x4096_1_0_0_1_n_n.rhsIdx i q 1).val = (i 1).val := by
  unfold DotDims.rhsIdx
  rw [dif_neg (show ¬(1 : Fin S64x4096.rank) ∈ dot_S1024x64_S64x4096_S1024x4096_1_0_0_1_n_n.rhsBatch from List.not_mem_nil), dif_pos (show (1 : Fin S64x4096.rank) ∈ dot_S1024x64_S64x4096_S1024x4096_1_0_0_1_n_n.rhsNonContracting from List.mem_singleton.mpr rfl)]
  rfl

/-- The [1024, 64] × [64, 4096] product at (p, d) is Σ_r l[p, r] · R[r, d]. -/
theorem dot_kv_apply (l : (⟨S1024x64, .f32⟩ : BufTy).Contents (Elt Ideal)) (R : (⟨S64x4096, .f32⟩ : BufTy).Contents (Elt Ideal))
    (p : Fin 1024) (d : Fin 4096) :
    Host.dotGeneral (F := Ideal) (φ₁ := .f32) (φ₂ := .f32) dot_S1024x64_S64x4096_S1024x4096_1_0_0_1_n_n none l R (ix2 p d)
      = ∑ r : Fin 64, l (ix2 p r) * R (ix2 r d) := by
  simp only [Host.dotGeneral]
  rw [Ideal.dotGeneral_apply, ← Equiv.sum_comp (ValueIdx.contrEquiv1 dot_S1024x64_S64x4096_S1024x4096_1_0_0_1_n_n 64 rfl rfl).symm]
  refine Finset.sum_congr rfl fun k _ => ?_
  have hk := ValueIdx.contrEquiv1_symm_val dot_S1024x64_S64x4096_S1024x4096_1_0_0_1_n_n 64 rfl rfl k
  have el : dot_S1024x64_S64x4096_S1024x4096_1_0_0_1_n_n.lhsIdx (ix2 p d) ((ValueIdx.contrEquiv1 dot_S1024x64_S64x4096_S1024x4096_1_0_0_1_n_n 64 rfl rfl).symm k) = ix2 p k := funext fun a => Fin.ext (by
    match a with
    | ⟨0, _⟩ => exact lhs_kv_0 _ _
    | ⟨1, _⟩ => exact (lhs_kv_1 _ _).trans hk)
  have er : dot_S1024x64_S64x4096_S1024x4096_1_0_0_1_n_n.rhsIdx (ix2 p d) ((ValueIdx.contrEquiv1 dot_S1024x64_S64x4096_S1024x4096_1_0_0_1_n_n 64 rfl rfl).symm k) = ix2 k d := funext fun a => Fin.ext (by
    match a with
    | ⟨0, _⟩ => exact (rhs_kv_0 _ _).trans hk
    | ⟨1, _⟩ => exact rhs_kv_1 _ _)
  rw [el, er]

/-! ## The stacked low-rank update at a row: the band of the row decides the piece -/

/-- The stacked update at row o, column d, is Σ_r B[o, r] · A[off o + r, d], with B the stacked B matrices. -/
theorem lora_apply (A : (⟨S192x4096, .f32⟩ : BufTy).Contents (Elt Ideal)) (Bq : (⟨S4096x64, .f32⟩ : BufTy).Contents (Elt Ideal))
    (Bk Bv : (⟨S1024x64, .f32⟩ : BufTy).Contents (Elt Ideal)) (o : Fin 6144) (d : Fin 4096) :
    lora (F := Ideal) A Bq Bk Bv (ix2 o d)
      = ∑ r : Fin 64, Cert.Spec.bfull Bq Bk Bv o r * A (ix2 (Cert.Spec.arow o r) d) := by
  unfold lora
  by_cases h0 : o.val < 4096
  · -- the first band: rows of B_q against rows 0 .. 64 of A
    refine Eq.trans (concatenate_apply_piece (0 : Fin S6144x4096.rank) _ _ (ix2 o d)
      0 ?hk0 S4096x4096 ?x0 ?hxk0 rfl 0 ?hpre0 (ix2 (⟨o.val, h0⟩ : Fin 4096) d) ?hi0 ?ha0) ?_
    case hxk0 => rfl
    case hk0 => exact (by simp : 0 < 3)
    case hpre0 => rfl
    case hi0 => exact fun b hb => match b, hb with
      | ⟨0, _⟩, hb => absurd rfl hb
      | ⟨1, _⟩, _ => rfl
    case ha0 => show 0 + (o.val) = o.val; omega
    refine (dot_q_apply _ _ _ _).trans (Finset.sum_congr rfl fun r _ => ?_)
    have hlt : 0 + r.val < 192 := by have := r.isLt; omega
    have e1 : Cert.Spec.bfull Bq Bk Bv o r = Bq (ix2 ⟨o.val, h0⟩ r) := by unfold Cert.Spec.bfull; rw [dif_pos h0]
    have e2 : Cert.Spec.arow o r = ⟨0 + r.val, hlt⟩ := Fin.ext (by
      show Cert.Spec.off o + r.val = 0 + r.val
      unfold Cert.Spec.off; rw [if_pos h0])
    rw [band_apply 0 A _ r d hlt, e1, e2]
  · by_cases h1 : o.val < 5120
    · -- the second band: rows of B_k against rows 64 .. 128 of A
      have hp : o.val - 4096 < 1024 := by omega
      obtain ⟨p, hpv⟩ : ∃ p : Fin 1024, p.val = o.val - 4096 := ⟨⟨o.val - 4096, hp⟩, rfl⟩
      refine Eq.trans (concatenate_apply_piece (0 : Fin S6144x4096.rank) _ _ (ix2 o d)
        1 ?hk1 S1024x4096 ?x1 ?hxk1 rfl 4096 ?hpre1 (ix2 p d) ?hi1 ?ha1) ?_
      case hxk1 => rfl
      case hk1 => exact (by simp : 1 < 3)
      case hpre1 => rfl
      case hi1 => exact fun b hb => match b, hb with
        | ⟨0, _⟩, hb => absurd rfl hb
        | ⟨1, _⟩, _ => rfl
      case ha1 => show 4096 + p.val = o.val; omega
      refine (dot_kv_apply _ _ _ _).trans (Finset.sum_congr rfl fun r _ => ?_)
      have hlt : 64 + r.val < 192 := by have := r.isLt; omega
      have e1 : Cert.Spec.bfull Bq Bk Bv o r = Bk (ix2 p r) := by
        unfold Cert.Spec.bfull; rw [dif_neg h0, dif_pos h1]
        exact congrArg (fun q : Fin 1024 => Bk (ix2 q r)) (Fin.ext hpv.symm)
      have e2 : Cert.Spec.arow o r = ⟨64 + r.val, hlt⟩ := Fin.ext (by
        show Cert.Spec.off o + r.val = 64 + r.val
        unfold Cert.Spec.off; rw [if_neg h0, if_pos h1])
      rw [band_apply 64 A _ r d hlt, e1, e2]
    · -- the third band: rows of B_v against rows 128 .. 192 of A
      have hp : o.val - 5120 < 1024 := by have := o.isLt; omega
      obtain ⟨p, hpv⟩ : ∃ p : Fin 1024, p.val = o.val - 5120 := ⟨⟨o.val - 5120, hp⟩, rfl⟩
      refine Eq.trans (concatenate_apply_piece (0 : Fin S6144x4096.rank) _ _ (ix2 o d)
        2 ?hk2 S1024x4096 ?x2 ?hxk2 rfl 5120 ?hpre2 (ix2 p d) ?hi2 ?ha2) ?_
      case hxk2 => rfl
      case hk2 => exact (by simp : 2 < 3)
      case hpre2 => rfl
      case hi2 => exact fun b hb => match b, hb with
        | ⟨0, _⟩, hb => absurd rfl hb
        | ⟨1, _⟩, _ => rfl
      case ha2 => show 5120 + p.val = o.val; omega
      refine (dot_kv_apply _ _ _ _).trans (Finset.sum_congr rfl fun r _ => ?_)
      have hlt : 128 + r.val < 192 := by have := r.isLt; omega
      have e1 : Cert.Spec.bfull Bq Bk Bv o r = Bv (ix2 p r) := by
        unfold Cert.Spec.bfull; rw [dif_neg h0, dif_neg h1]
        exact congrArg (fun q : Fin 1024 => Bv (ix2 q r)) (Fin.ext hpv.symm)
      have e2 : Cert.Spec.arow o r = ⟨128 + r.val, hlt⟩ := Fin.ext (by
        show Cert.Spec.off o + r.val = 128 + r.val
        unfold Cert.Spec.off; rw [if_neg h0, if_neg h1])
      rw [band_apply 128 A _ r d hlt, e1, e2]

/-! ## The second operand -/

/-- The second operand at (d, o) is the merged weight at (o, d). -/
theorem wT_apply (W : (⟨S6144x4096, .f32⟩ : BufTy).Contents (Elt Ideal)) (A : (⟨S192x4096, .f32⟩ : BufTy).Contents (Elt Ideal))
    (Bq : (⟨S4096x64, .f32⟩ : BufTy).Contents (Elt Ideal)) (Bk Bv : (⟨S1024x64, .f32⟩ : BufTy).Contents (Elt Ideal))
    (d : Fin 4096) (o : Fin 6144) :
    wT (F := Ideal) W A Bq Bk Bv (ix2 d o) = Cert.Spec.merged W A Bq Bk Bv o d := by
  unfold wT
  refine (truncf_apply _ bitsLt_bf16_f32 (ix2 d o)).trans ?_
  refine (transpose_ix2_apply _ transposes_S6144x4096_S4096x6144_1_0 d o).trans ?_
  refine (addf_apply _ _ (ix2 o d)).trans ?_
  unfold Cert.Spec.merged
  rw [lora_apply]

end Cert.KernelIdeal.Stage

end
-- ==== Proof.PayloadAt.lean ====
/-
  The kernel body's one stored value read at an output coordinate (p, q): the product of the 1024 × 4096 block with the
  4096 × 512 block accumulated into zero, plus the 1 × 512 bias row broadcast along the rows, is
  Σ_k x0[p, k] · x1[k, q] + x2[0, q].
-/
import proofs.«169632_j49306224558199_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-- The left operand's row coordinate is the output's row. -/
theorem lhs_0 (i : S1024x512.Idx) (c : dot_S1024x4096_S4096x512_S1024x512_1_0_0_1_n_n.contr.Idx) :
    (dot_S1024x4096_S4096x512_S1024x512_1_0_0_1_n_n.lhsIdx i c 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
/-- The left operand's column coordinate is the contracted index. -/
theorem lhs_1 (i : S1024x512.Idx) (c : dot_S1024x4096_S4096x512_S1024x512_1_0_0_1_n_n.contr.Idx) :
    (dot_S1024x4096_S4096x512_S1024x512_1_0_0_1_n_n.lhsIdx i c 1).val = (c ⟨0, by decide⟩).val :=
  dot_S1024x4096_S4096x512_S1024x512_1_0_0_1_n_n.lhsIdx_val_of_single rfl i c
/-- The right operand's row coordinate is the contracted index. -/
theorem rhs_0 (i : S1024x512.Idx) (c : dot_S1024x4096_S4096x512_S1024x512_1_0_0_1_n_n.contr.Idx) :
    (dot_S1024x4096_S4096x512_S1024x512_1_0_0_1_n_n.rhsIdx i c 0).val = (c ⟨0, by decide⟩).val :=
  dot_S1024x4096_S4096x512_S1024x512_1_0_0_1_n_n.rhsIdx_val_of_single rfl i c
/-- The right operand's column coordinate is the output's column. -/
theorem rhs_1 (i : S1024x512.Idx) (c : dot_S1024x4096_S4096x512_S1024x512_1_0_0_1_n_n.contr.Idx) :
    (dot_S1024x4096_S4096x512_S1024x512_1_0_0_1_n_n.rhsIdx i c 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

theorem pay_apply (x0 : Vec Ideal S1024x4096 .bf16) (x1 : Vec Ideal S4096x512 .bf16) (x2 : Vec Ideal S1x512 .f32) (p : Fin 1024) (q : Fin 512) :
    k0_pay1 (F := Ideal) x0 x1 x2 (ix2 p q) = (∑ k : Fin 4096, x0 (ix2 p k) * x1 (ix2 k q)) + x2 (ix2 (0 : Fin 1) q) := by
  unfold k0_pay1
  rw [addf_apply, shapeCast_self, shapeCast_self, shapeCast_self]
  simp only [matmul]
  rw [Ideal.matmul_constant_zero_apply, broadcastTo_1b_ab_apply,
    ← Equiv.sum_comp (contrEquiv1 dot_S1024x4096_S4096x512_S1024x512_1_0_0_1_n_n 4096 rfl rfl).symm]
  refine congrArg (· + x2 (ix2 (0 : Fin 1) q)) (Finset.sum_congr rfl fun k _ => ?_)
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun a => Fin.ext (by
    match a with
    | ⟨0, _⟩ => exact lhs_0 _ _
    | ⟨1, _⟩ => exact (lhs_1 _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun a => Fin.ext (by
    match a with
    | ⟨0, _⟩ => exact (rhs_0 _ _).trans hk
    | ⟨1, _⟩ => exact rhs_1 _ _)
  rw [el, er]

end Cert.KernelIdeal.PayloadAt

end
-- ==== Proof.ValueIdeal.lean ====
/-
  What the idealized kernel's result array holds when it ends, at the extended reals: entry (s, o) is
  `Cert.Spec.mergedOut` of the seven argument arrays, Σ_d x[s, d] · (W[o, d] + Σ_r B[o, r] · A[off o + r, d]) + b[o].

  The region is launched on three arrays the host lines computed: the activations, the merged weight transposed to
  [4096, 6144], and the bias as one row (the narrowings to bf16 change nothing at the extended reals). Grid point t with
  block coordinates (I, J) is handed rows I·1024 … of the activations, columns J·512 … of the weight and of the bias row,
  and stores the 1024 × 512 block whose entry (p, q) is the contraction over d plus the bias at column J·512 + q: that is
  `mergedOut` at (I·1024 + p, J·512 + q). The 16 × 12 blocks tile the [16384, 6144] result, so the array after the run
  is `mergedOut` everywhere.
-/
import proofs.«169632_j49306224558199_1_alg».proof.Proof.FrameIdeal
import proofs.«169632_j49306224558199_1_alg».proof.Proof.HostTerms
import proofs.«169632_j49306224558199_1_alg».proof.Proof.StageAt
import proofs.«169632_j49306224558199_1_alg».proof.Proof.PayloadAt
import proofs.«169632_j49306224558199_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Result

open Cert.KernelIdeal Cert.KernelIdeal.Gen Cert.KernelIdeal.Region
open Idealize.ShloMosaic Idealize.ShloMosaic.TcCoe Idealize.SL.Sem Idealize.ShloMosaic.StableHlo Idealize.ShloMosaic.ValueIdx
open Idealize.ShloMosaic.Pipeline (Dat)
open Cert.Spec (Arr2 Arr1 merged mergedOut arrOf)

variable (m : (ℓ : Loc nD τ sig) → Buf (Elt Ideal) ℓ) (ρ : Dev nD → PrngReg)

/-! ## The seven argument arrays, and the result as one function of them -/

abbrev aX (c : Dev nD) : Arr2 16384 4096 := m ((c : Thread nD τ).loc main_arg0)
abbrev aW (c : Dev nD) : Arr2 6144 4096 := m ((c : Thread nD τ).loc main_arg1)
abbrev aB (c : Dev nD) : Arr1 6144 := m ((c : Thread nD τ).loc main_arg2)
abbrev aA (c : Dev nD) : Arr2 192 4096 := m ((c : Thread nD τ).loc main_arg3)
abbrev aBq (c : Dev nD) : Arr2 4096 64 := m ((c : Thread nD τ).loc main_arg4)
abbrev aBk (c : Dev nD) : Arr2 1024 64 := m ((c : Thread nD τ).loc main_arg5)
abbrev aBv (c : Dev nD) : Arr2 1024 64 := m ((c : Thread nD τ).loc main_arg6)

/-- The result array: `mergedOut` of the arguments at every (s, o). -/
def resultArr (c : Dev nD) : Arr2 16384 6144 :=
  arrOf (mergedOut (aX m c) (aW m c) (aB m c) (aA m c) (aBq m c) (aBk m c) (aBv m c))

/-! ## The region's three input arrays are the host stages -/

theorem V_x (c : Dev nD) : (V m c main_v9 : S16384x4096.Idx → EReal) = Stage.xT (F := Ideal) (aX m c) := by
  dsimp only [V]
  simp only [hostOps0, List.flatten_cons, List.flatten_nil, List.append_nil, List.cons_append, List.nil_append]
  after_results
  rfl

theorem V_w (c : Dev nD) : (V m c main_v10 : S4096x6144.Idx → EReal)
    = Stage.wT (F := Ideal) (aW m c) (aA m c) (aBq m c) (aBk m c) (aBv m c) := by
  dsimp only [V]
  simp only [hostOps0, List.flatten_cons, List.flatten_nil, List.append_nil, List.cons_append, List.nil_append]
  after_results
  rfl

theorem V_b (c : Dev nD) : (V m c main_v11 : S1x6144.Idx → EReal) = Stage.bT (F := Ideal) (aB m c) := by
  dsimp only [V]
  simp only [hostOps0, List.flatten_cons, List.flatten_nil, List.append_nil, List.cons_append, List.nil_append]
  after_results
  rfl

/-! ## One block -/

/-- Entry (p, q) of the stored block, when the three loaded blocks are block row `I` of the activations and block
    column `J` of the transposed merged weight and of the bias row: `mergedOut` at (I·1024 + p, J·512 + q). -/
theorem block_value (X : Arr2 16384 4096) (W : Arr2 6144 4096) (b : Arr1 6144) (A : Arr2 192 4096)
    (Bq : Arr2 4096 64) (Bk Bv : Arr2 1024 64)
    (xb : Vec Ideal S1024x4096 .bf16) (wb : Vec Ideal S4096x512 .bf16) (bb : Vec Ideal S1x512 .f32)
    (I J : Nat) (hI : I ≤ 15) (hJ : J ≤ 11)
    (hx : ∀ (p : Fin 1024) (k : Fin 4096), xb (ix2 p k) = X (ix2 (⟨I * 1024 + p.val, by have := p.isLt; omega⟩ : Fin 16384) k))
    (hw : ∀ (k : Fin 4096) (q : Fin 512), wb (ix2 k q) = merged W A Bq Bk Bv (⟨J * 512 + q.val, by have := q.isLt; omega⟩ : Fin 6144) k)
    (hb : ∀ (q : Fin 512), bb (ix2 (0 : Fin 1) q) = b (ix1 (⟨J * 512 + q.val, by have := q.isLt; omega⟩ : Fin 6144)))
    (p : Fin 1024) (q : Fin 512) :
    k0_pay1 (F := Ideal) xb wb bb (ix2 p q)
      = mergedOut X W b A Bq Bk Bv (⟨I * 1024 + p.val, by have := p.isLt; omega⟩ : Fin 16384) (⟨J * 512 + q.val, by have := q.isLt; omega⟩ : Fin 6144) := by
  rw [PayloadAt.pay_apply]
  unfold mergedOut
  simp only [hx, hw, hb]

/-! ## The blocks of the result window -/

theorem hz : (![0, 0] : Fin 2 → Nat) = fun _ => 0 := funext fun a => by fin_cases a <;> rfl

/-- The four index maps over the grid: the activations move with the result's block row, the weight and the bias
    with its block column, every other block coordinate is zero, and the result's block coordinates stay in 16 × 12. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 11 :=
  (by decide +kernel : ∀ t : Fin grid0.N, _)

/-- Every block of the 16 × 12 tiling is some point's. -/
theorem idx_onto : ∀ (q0 : Fin 16) (q1 : Fin 12), ∃ t : Fin cfg0.N, win0_3.index t = ![q0.val, q1.val] :=
  (by decide +kernel : ∀ (q0 : Fin 16) (q1 : Fin 12), ∃ t : Fin grid0.N, win0_3.index t = ![q0.val, q1.val])

/-- What point `t` writes back is block `t` of `resultArr`. -/
theorem flushed_eq (c : Dev nD) (t : Fin cfg0.N) :
    (dats m 0 c).flushed 3 t = ((cfg0.win 3).blk t).view.read (Elt Ideal) (resultArr m c) := by
  show (cfg0.win 3).cut (grid0.coords t) ((dats m 0 c).after 3 t) = _
  rw [after_out]
  unfold outBlock
  rw [View.canon_unit_zero hz]
  simp only [View.ld_unit_zero (S := S1024x4096) hz, View.ld_unit_zero (S := S4096x512) hz, View.ld_unit_zero (S := S1x512) hz]
  obtain ⟨e0, e1, e2, e3, e4, e5, e6, e7⟩ := idx_facts t
  refine funext fun (j : S1024x512.Idx) => ?_
  obtain ⟨p, q, rfl⟩ : ∃ (p : Fin 1024) (q : Fin 512), j = ix2 p q := ⟨j 0, j 1, eq_ix2 j⟩
  refine (block_value (aX m c) (aW m c) (aB m c) (aA m c) (aBq m c) (aBk m c) (aBv m c)
    (iblk m c 0 t) (iblk m c 1 t) (iblk m c 2 t) (win0_3.index t (0 : Fin 2)) (win0_3.index t (1 : Fin 2)) e6 e7 ?_ ?_ ?_ p q).trans ?_
  · intro p k
    show V m c main_v9 (((cfg0.win 0).blk t).view.emb (ix2 p k)) = _
    rw [V_x, Stage.xT_apply]
    refine congrArg (aX m c) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 4096 + 1 * k.val = k.val; omega
  · intro k q
    show V m c main_v10 (((cfg0.win 1).blk t).view.emb (ix2 k q)) = _
    rw [V_w, ← Stage.wT_apply]
    refine congrArg (Stage.wT (F := Ideal) (aW m c) (aA m c) (aBq m c) (aBk m c) (aBv m c)) (funext fun a => Fin.ext ?_)
    match a with
    | ⟨0, _⟩ => show win0_1.index t (0 : Fin 2) * 4096 + 1 * k.val = k.val; omega
    | ⟨1, _⟩ => show win0_1.index t (1 : Fin 2) * 512 + 1 * q.val = win0_3.index t (1 : Fin 2) * 512 + q.val; omega
  · intro q
    show V m c main_v11 (((cfg0.win 2).blk t).view.emb (ix2 (0 : Fin 1) q)) = _
    rw [V_b]
    refine (congrArg (Stage.bT (F := Ideal) (aB m c)) (funext fun a => Fin.ext ?_)).trans
      (Stage.bT_apply (aB m c) (⟨win0_3.index t (1 : Fin 2) * 512 + q.val, by have := q.isLt; omega⟩ : Fin 6144))
    match a with
    | ⟨0, _⟩ => show win0_2.index t (0 : Fin 2) * 1 + 1 * 0 = 0; omega
    | ⟨1, _⟩ => show win0_2.index t (1 : Fin 2) * 512 + 1 * q.val = win0_3.index t (1 : Fin 2) * 512 + q.val; omega
  · show _ = resultArr m c (((cfg0.win 3).blk t).view.emb (ix2 p q))
    unfold resultArr
    rw [← Cert.Spec.arrOf_ix2 (mergedOut (aX m c) (aW m c) (aB m c) (aA m c) (aBq m c) (aBk m c) (aBv m c))]
    refine congrArg _ (funext fun a => Fin.ext ?_)
    match a with
    | ⟨0, _⟩ => show win0_3.index t (0 : Fin 2) * 1024 + p.val = win0_3.index t (0 : Fin 2) * 1024 + 1 * p.val; omega
    | ⟨1, _⟩ => show win0_3.index t (1 : Fin 2) * 512 + q.val = win0_3.index t (1 : Fin 2) * 512 + 1 * q.val; omega

/-- An index of the result is in point `t`'s block iff each coordinate is in the block's range on its axis. -/
theorem mem_blk (t : Fin cfg0.N) (i : S16384x6144.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v12).slice (win0_3.rect t)).set ↔ _
  rw [View.set_slice_whole, Rect.mem_set_unit]
  exact Iff.rfl

/-- Every index of the result lies in the block of the point with block coordinates (s / 1024, o / 512). -/
theorem cover (i : S16384x6144.Idx) :
    ∃ t : Fin cfg0.N, (cfg0.win 3).flush t = true ∧ i ∈ ((cfg0.win 3).blk t).view.set := by
  have hi0 : (i 0).val < 16384 := (i 0).isLt
  have hi1 : (i 1).val < 6144 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the run. -/
theorem final (c : Dev nD) : (dats m 0 c).arrAt 3 cfg0.N = resultArr m c :=
  (dats m 0 c).arrAt_eq_of_cover 3 (resultArr m c) (fun t _ => flushed_eq m c t) cover

/-! ## The run, read -/

/-- Every weakly fair execution terminates with the result array at `resultArr` and the arguments as launched. -/
theorem run : θ_run defs (onTc (τ := τ) (main (F := Ideal))) ⟨m, fun _ => 0, ρ⟩ fun r => ∀ c : Dev nD,
      r.2.mem ((c : Thread nD τ).loc main_v12) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Result

end
-- ==== Proof.RefValue.lean ====
/-
  The reference's result array, read at coordinates, is `Cert.Spec.splitOut` of the argument arrays.
-/
import proofs.«169632_j49306224558199_1_alg».proof.Proof.Gen.ReferenceIdeal.Read
import proofs.«169632_j49306224558199_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.ReferenceIdeal.Gen Idealize.ShloMosaic Idealize.ShloMosaic.ValueIdx
open scoped BigOperators

/-- The base product plus the bias, at row s and column o: Σ_d x[s, d] · W[o, d] + b[o]. -/
theorem base_apply (x0 : (⟨S16384x4096, .f32⟩ : BufTy).Contents (Elt Ideal)) (x1 : (⟨S6144x4096, .f32⟩ : BufTy).Contents (Elt Ideal))
    (x2 : (⟨S6144, .f32⟩ : BufTy).Contents (Elt Ideal)) (s : Fin 16384) (o : Fin 6144) :
    val_main_v3 (F := Ideal) x0 x1 x2 (ix2 s o) = (∑ d : Fin 4096, x0 (ix2 s d) * x1 (ix2 o d)) + x2 (ix1 o) := by
  rw [val_main_v3_apply, val_main_v0_apply, val_main_v2_apply, val_main_v1_apply]
  have eb : idx_main_v1 (idx_main_v2 (ix2 s o)) = ix1 o :=
    funext fun a => Fin.ext (by match a with | ⟨0, _⟩ => rfl)
  have el : ∀ d : Fin 4096, lidx_main_v0 (ix2 s o) d = ix2 s d := fun d =>
    funext fun a => Fin.ext (by match a with | ⟨0, _⟩ => rfl | ⟨1, _⟩ => rfl)
  have er : ∀ d : Fin 4096, ridx_main_v0 (ix2 s o) d = ix2 o d := fun d =>
    funext fun a => Fin.ext (by match a with | ⟨0, _⟩ => rfl | ⟨1, _⟩ => rfl)
  rw [eb]
  simp only [el, er]
  rfl

/-- The product x · Aᵀ at row s and column c: Σ_d x[s, d] · A[c, d]. -/
theorem la_apply (x0 : (⟨S16384x4096, .f32⟩ : BufTy).Contents (Elt Ideal)) (x3 : (⟨S192x4096, .f32⟩ : BufTy).Contents (Elt Ideal))
    (s : Fin 16384) (c : Fin 192) :
    val_main_v4 (F := Ideal) x0 x3 (ix2 s c) = ∑ d : Fin 4096, x0 (ix2 s d) * x3 (ix2 c d) := by
  rw [val_main_v4_apply]
  refine Finset.sum_congr rfl fun d _ => ?_
  have el : lidx_main_v4 (ix2 s c) d = ix2 s d :=
    funext fun a => Fin.ext (by match a with | ⟨0, _⟩ => rfl | ⟨1, _⟩ => rfl)
  have er : ridx_main_v4 (ix2 s c) d = ix2 c d :=
    funext fun a => Fin.ext (by match a with | ⟨0, _⟩ => rfl | ⟨1, _⟩ => rfl)
  rw [el, er]

/-- The first band's low-rank product at row s and column p of the band: it draws rows c r = r of A. -/
theorem band0_apply (x0 : (⟨S16384x4096, .f32⟩ : BufTy).Contents (Elt Ideal)) (x3 : (⟨S192x4096, .f32⟩ : BufTy).Contents (Elt Ideal))
    (x4 : (⟨S4096x64, .f32⟩ : BufTy).Contents (Elt Ideal)) (s : Fin 16384) (p : Fin 4096)
    (c : Fin 64 → Fin 192) (hc : ∀ r, (c r).val = r.val) :
    val_main_v6 (F := Ideal) x0 x3 x4 (ix2 s p)
      = ∑ r : Fin 64, (∑ d : Fin 4096, x0 (ix2 s d) * x3 (ix2 (c r) d)) * x4 (ix2 p r) := by
  rw [val_main_v6_apply]
  refine Finset.sum_congr rfl fun r _ => ?_
  have el : lidx_main_v6 (ix2 s p) r = ix2 s r :=
    funext fun a => Fin.ext (by match a with | ⟨0, _⟩ => rfl | ⟨1, _⟩ => rfl)
  have er : ridx_main_v6 (ix2 s p) r = ix2 p r :=
    funext fun a => Fin.ext (by match a with | ⟨0, _⟩ => rfl | ⟨1, _⟩ => rfl)
  have es : idx_main_v5 (ix2 s r) = ix2 s (c r) :=
    funext fun a => Fin.ext (by match a with | ⟨0, _⟩ => rfl | ⟨1, _⟩ => exact (hc r).symm)
  rw [el, er, val_main_v5_apply, es, la_apply]

/-- The second band's low-rank product: it draws rows c r = 64 + r of A. -/
theorem band1_apply (x0 : (⟨S16384x4096, .f32⟩ : BufTy).Contents (Elt Ideal)) (x3 : (⟨S192x4096, .f32⟩ : BufTy).Contents (Elt Ideal))
    (x5 : (⟨S1024x64, .f32⟩ : BufTy).Contents (Elt Ideal)) (s : Fin 16384) (p : Fin 1024)
    (c : Fin 64 → Fin 192) (hc : ∀ r, (c r).val = 64 + r.val) :
    val_main_v8 (F := Ideal) x0 x3 x5 (ix2 s p)
      = ∑ r : Fin 64, (∑ d : Fin 4096, x0 (ix2 s d) * x3 (ix2 (c r) d)) * x5 (ix2 p r) := by
  rw [val_main_v8_apply]
  refine Finset.sum_congr rfl fun r _ => ?_
  have el : lidx_main_v8 (ix2 s p) r = ix2 s r :=
    funext fun a => Fin.ext (by match a with | ⟨0, _⟩ => rfl | ⟨1, _⟩ => rfl)
  have er : ridx_main_v8 (ix2 s p) r = ix2 p r :=
    funext fun a => Fin.ext (by match a with | ⟨0, _⟩ => rfl | ⟨1, _⟩ => rfl)
  have es : idx_main_v7 (ix2 s r) = ix2 s (c r) :=
    funext fun a => Fin.ext (by match a with | ⟨0, _⟩ => rfl | ⟨1, _⟩ => exact (hc r).symm)
  rw [el, er, val_main_v7_apply, es, la_apply]

/-- The third band's low-rank product: it draws rows c r = 128 + r of A. -/
theorem band2_apply (x0 : (⟨S16384x4096, .f32⟩ : BufTy).Contents (Elt Ideal)) (x3 : (⟨S192x4096, .f32⟩ : BufTy).Contents (Elt Ideal))
    (x6 : (⟨S1024x64, .f32⟩ : BufTy).Contents (Elt Ideal)) (s : Fin 16384) (p : Fin 1024)
    (c : Fin 64 → Fin 192) (hc : ∀ r, (c r).val = 128 + r.val) :
    val_main_v10 (F := Ideal) x0 x3 x6 (ix2 s p)
      = ∑ r : Fin 64, (∑ d : Fin 4096, x0 (ix2 s d) * x3 (ix2 (c r) d)) * x6 (ix2 p r) := by
  rw [val_main_v10_apply]
  refine Finset.sum_congr rfl fun r _ => ?_
  have el : lidx_main_v10 (ix2 s p) r = ix2 s r :=
    funext fun a => Fin.ext (by match a with | ⟨0, _⟩ => rfl | ⟨1, _⟩ => rfl)
  have er : ridx_main_v10 (ix2 s p) r = ix2 p r :=
    funext fun a => Fin.ext (by match a with | ⟨0, _⟩ => rfl | ⟨1, _⟩ => rfl)
  have es : idx_main_v9 (ix2 s r) = ix2 s (c r) :=
    funext fun a => Fin.ext (by match a with | ⟨0, _⟩ => rfl | ⟨1, _⟩ => exact (hc r).symm)
  rw [el, er, val_main_v9_apply, es, la_apply]

/-- The three bands joined along the columns, at row s and column o: the band that holds o, read at o less the
    columns before that band; this is the low-rank path Σ_r (Σ_d x[s, d] · A[off o + r, d]) · B[o, r]. -/
theorem low_apply (x0 : (⟨S16384x4096, .f32⟩ : BufTy).Contents (Elt Ideal)) (x3 : (⟨S192x4096, .f32⟩ : BufTy).Contents (Elt Ideal))
    (x4 : (⟨S4096x64, .f32⟩ : BufTy).Contents (Elt Ideal)) (x5 x6 : (⟨S1024x64, .f32⟩ : BufTy).Contents (Elt Ideal))
    (s : Fin 16384) (o : Fin 6144) :
    val_main_v11 (F := Ideal) x0 x3 x4 x5 x6 (ix2 s o)
      = ∑ r : Fin 64, (∑ d : Fin 4096, x0 (ix2 s d) * x3 (ix2 (Cert.Spec.arow o r) d)) * Cert.Spec.bfull x4 x5 x6 o r := by
  have ho : o.val < 6144 := o.isLt
  unfold val_main_v11
  by_cases h0 : o.val < 4096
  · refine (concatenate_apply_piece (1 : Fin S16384x6144.rank) _ _ (ix2 s o) 0 (by show 0 < 3; omega) S16384x4096
      (val_main_v6 (F := Ideal) x0 x3 x4) rfl rfl 0 rfl (ix2 s ⟨o.val, h0⟩)
      (fun b hb => by match b with | ⟨0, _⟩ => rfl | ⟨1, _⟩ => exact absurd (Fin.ext rfl) hb)
      (by show 0 + o.val = o.val; omega)).trans ?_
    rw [band0_apply x0 x3 x4 s ⟨o.val, h0⟩ (Cert.Spec.arow o)
      (fun r => by show Cert.Spec.off o + r.val = r.val; unfold Cert.Spec.off; rw [if_pos h0]; omega)]
    refine Finset.sum_congr rfl fun r _ => ?_
    unfold Cert.Spec.bfull
    rw [dif_pos h0]
  · by_cases h1 : o.val < 5120
    · refine (concatenate_apply_piece (1 : Fin S16384x6144.rank) _ _ (ix2 s o) 1 (by show 1 < 3; omega) S16384x1024
        (val_main_v8 (F := Ideal) x0 x3 x5) rfl rfl 4096 rfl (ix2 s ⟨o.val - 4096, by omega⟩)
        (fun b hb => by match b with | ⟨0, _⟩ => rfl | ⟨1, _⟩ => exact absurd (Fin.ext rfl) hb)
        (by show 4096 + (o.val - 4096) = o.val; omega)).trans ?_
      rw [band1_apply x0 x3 x5 s ⟨o.val - 4096, by omega⟩ (Cert.Spec.arow o)
        (fun r => by show Cert.Spec.off o + r.val = 64 + r.val; unfold Cert.Spec.off; rw [if_neg h0, if_pos h1])]
      refine Finset.sum_congr rfl fun r _ => ?_
      unfold Cert.Spec.bfull
      rw [dif_neg h0, dif_pos h1]
    · refine (concatenate_apply_piece (1 : Fin S16384x6144.rank) _ _ (ix2 s o) 2 (by show 2 < 3; omega) S16384x1024
        (val_main_v10 (F := Ideal) x0 x3 x6) rfl rfl 5120 rfl (ix2 s ⟨o.val - 5120, by omega⟩)
        (fun b hb => by match b with | ⟨0, _⟩ => rfl | ⟨1, _⟩ => exact absurd (Fin.ext rfl) hb)
        (by show 5120 + (o.val - 5120) = o.val; omega)).trans ?_
      rw [band2_apply x0 x3 x6 s ⟨o.val - 5120, by omega⟩ (Cert.Spec.arow o)
        (fun r => by show Cert.Spec.off o + r.val = 128 + r.val; unfold Cert.Spec.off; rw [if_neg h0, if_neg h1])]
      refine Finset.sum_congr rfl fun r _ => ?_
      unfold Cert.Spec.bfull
      rw [dif_neg h0, dif_neg h1]

/-- The reference's result is the base product and bias plus the low-rank path, at every row and column. -/
theorem result_eq (x0 : (⟨S16384x4096, .f32⟩ : BufTy).Contents (Elt Ideal)) (x1 : (⟨S6144x4096, .f32⟩ : BufTy).Contents (Elt Ideal))
    (x2 : (⟨S6144, .f32⟩ : BufTy).Contents (Elt Ideal)) (x3 : (⟨S192x4096, .f32⟩ : BufTy).Contents (Elt Ideal))
    (x4 : (⟨S4096x64, .f32⟩ : BufTy).Contents (Elt Ideal)) (x5 x6 : (⟨S1024x64, .f32⟩ : BufTy).Contents (Elt Ideal)) :
    Cert.ReferenceIdeal.Read.val_main_v12 (F := Ideal) x0 x1 x2 x3 x4 x5 x6
      = Cert.Spec.arrOf (Cert.Spec.splitOut x0 x1 x2 x3 x4 x5 x6) := by
  funext j
  obtain ⟨s, o, rfl⟩ : ∃ (s : Fin 16384) (o : Fin 6144), j = ix2 s o := ⟨j 0, j 1, eq_ix2 j⟩
  rw [val_main_v12_apply, base_apply, low_apply, Cert.Spec.arrOf_ix2]
  rfl

end Cert.ReferenceIdeal.RefValue

end
-- ==== Proof.Bridge.lean ====
/-
  The algebra of the certificate: merging the low-rank update into the weight before the product gives the
  same value as adding the low-rank path after the base product.

  Over the reals, Σ_d x_d · (w_d + Σ_r β_r · a_{r,d}) = Σ_d x_d · w_d + Σ_r (Σ_d x_d · a_{r,d}) · β_r by
  distributivity and exchanging the two finite sums. Every entry of x, W, A and the B matrices is a real number,
  so both sides are coercions of real sums; the bias is moved by commutativity and associativity of addition on
  the extended reals, which needs no finiteness.
-/
import proofs.«169632_j49306224558199_1_alg».proof.Proof.Spec
import Mathlib.Data.EReal.Operations
import Mathlib.Algebra.BigOperators.Ring.Finset
import Mathlib.Tactic.Ring

noncomputable section

open scoped BigOperators

namespace Cert.Spec

open Idealize.ShloMosaic Idealize.ShloMosaic.ValueIdx

/-- Distributivity and exchange of sums over the reals. -/
theorem real_bridge {D R : Type*} [Fintype D] [Fintype R] (x w : D → ℝ) (a : R → D → ℝ) (β : R → ℝ) :
    ∑ d, x d * (w d + ∑ r, β r * a r d) = ∑ d, x d * w d + ∑ r, (∑ d, x d * a r d) * β r := by
  simp only [mul_add, Finset.sum_add_distrib, Finset.mul_sum, Finset.sum_mul]
  congr 1
  rw [Finset.sum_comm]
  refine Finset.sum_congr rfl fun r _ => Finset.sum_congr rfl fun d _ => ?_
  ring

/-- The coercion ℝ → EReal commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of the stacked B matrices is a row of one of them, so its entries are real. -/
theorem bfull_real (Bq : Arr2 4096 64) (Bk Bv : Arr2 1024 64)
    (hBq : ∀ i, ∃ r : ℝ, Bq i = (r : EReal)) (hBk : ∀ i, ∃ r : ℝ, Bk i = (r : EReal))
    (hBv : ∀ i, ∃ r : ℝ, Bv i = (r : EReal)) (o : Fin 6144) (r : Fin 64) :
    ∃ t : ℝ, bfull Bq Bk Bv o r = (t : EReal) := by
  unfold bfull
  split_ifs
  · exact hBq _
  · exact hBk _
  · exact hBv _

theorem mergedOut_eq_splitOut (x : Arr2 16384 4096) (W : Arr2 6144 4096) (b : Arr1 6144) (A : Arr2 192 4096)
    (Bq : Arr2 4096 64) (Bk Bv : Arr2 1024 64)
    (hx : ∀ i, ∃ r : ℝ, x i = (r : EReal)) (hW : ∀ i, ∃ r : ℝ, W i = (r : EReal)) (hA : ∀ i, ∃ r : ℝ, A i = (r : EReal))
    (hBq : ∀ i, ∃ r : ℝ, Bq i = (r : EReal)) (hBk : ∀ i, ∃ r : ℝ, Bk i = (r : EReal)) (hBv : ∀ i, ∃ r : ℝ, Bv i = (r : EReal))
    (s : Fin 16384) (o : Fin 6144) :
    mergedOut x W b A Bq Bk Bv s o = splitOut x W b A Bq Bk Bv s o := by
  choose xr hxr using hx
  choose wr hwr using hW
  choose ar har using hA
  choose βr hβr using bfull_real Bq Bk Bv hBq hBk hBv o
  have h := real_bridge (fun d => xr (ix2 s d)) (fun d => wr (ix2 o d))
    (fun r d => ar (ix2 (arow o r) d)) βr
  beta_reduce at h
  unfold mergedOut splitOut merged
  simp only [hxr, hwr, har, hβr, ← EReal.coe_mul, ← coe_finset_sum, ← EReal.coe_add]
  rw [h, EReal.coe_add, add_right_comm]

end Cert.Spec

end
-- ==== Proof.Finite.lean ====
/-
  Finiteness out of the precondition. The precondition says, of each of the seven float arrays, that
  |a| < +∞ at every entry (the comparisons reduced by "and" over every axis, the seven results joined
  by "and"), and that the joined bit is 1. Here that is read back: every entry of every array is a real.

  An extended real x with max x (-x) < ⊤ is neither ⊤ nor ⊥, so it is the coercion of a real: that is the
  element fact. A reduction by "and" into a result with one index that came out 1 met a 1 at every
  operand index: that carries the element fact to every entry of one array, whatever its shape.
-/
import proofs.«169632_j49306224558199_1_alg».proof.Defs
import proofs.«169632_j49306224558199_1_alg».proof.Proof.Gen.Pre_finite_inputs
import Idealize.ShloMosaic.Lib.ReduceAll
import Idealize.ShloMosaic.Lib.ValueIdx

noncomputable section

namespace Cert.Finite

open Idealize.ShloMosaic Idealize.SL.Sem

/-- The rank-0 shape has one index. -/
instance subsingleton_scalar_idx : Subsingleton Cert.Pre_finite_inputs.S_.Idx :=
  ⟨fun a b => funext fun d => d.elim0⟩

/-- The f32 pattern 0x7F800000 denotes +∞. -/
theorem ofBits_inf_f32 : Ideal.ofBits .f32 0x7F800000#32 = (⊤ : EReal) := by
  simp [Ideal.ofBits, Ideal.ieee]

/-- One value: if |x| < +∞ holds as a comparison bit, x is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf_f32] at h
  unfold Ideal.cmp at h
  induction x using EReal.rec with
  | bot => simp at h
  | coe r => exact ⟨r, rfl⟩
  | top => simp at h

/-- One array, any shape: if the "and" over every axis of the bits |a i| < +∞ is 1, every entry of a is a real. -/
theorem array_real {s u : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < u.numel) (init : u.Idx → BitVec 1)
    (e : Host.reduce IntOp.andi
          (cmpf .olt (Host.absf a)
            (broadcastInDim s ![] hb (constant (F := Ideal) Cert.Pre_finite_inputs.S_ .f32 0x7F800000#32)))
          init hr hu ValueIdx.ix0 = 1#1) :
    ∀ i, ∃ r : ℝ, a i = (r : EReal) := fun i =>
  real_of_abs_lt_inf (a i) (Host.reduce_andi_all _ init hr hu ValueIdx.ix0 e i)

/-- The precondition's function at the ideal instance being all ones makes every entry of the seven arrays a real. -/
theorem entries_real [Cert.Pre_finite_inputs.Facts]
    (a0 : FVec Ideal Cert.Pre_finite_inputs.S16384x4096 .f32) (a1 : FVec Ideal Cert.Pre_finite_inputs.S6144x4096 .f32)
    (a2 : FVec Ideal Cert.Pre_finite_inputs.S6144 .f32) (a3 : FVec Ideal Cert.Pre_finite_inputs.S192x4096 .f32)
    (a4 : FVec Ideal Cert.Pre_finite_inputs.S4096x64 .f32) (a5 a6 : FVec Ideal Cert.Pre_finite_inputs.S1024x64 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e1⟩, e2⟩, e3⟩, e4⟩, e5⟩, e6⟩ := h0
  exact ⟨array_real a0 _ _ _ _ e0, array_real a1 _ _ _ _ e1, array_real a2 _ _ _ _ e2, array_real a3 _ _ _ _ e3,
    array_real a4 _ _ _ _ e4, array_real a5 _ _ _ _ e5, array_real a6 _ _ _ _ e6⟩

/-- The same under the certificate's own precondition, on every device. -/
theorem of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) :=
  entries_real _ _ _ _ _ _ _ (h c)

end Cert.Finite

end
-- ==== Proof.lean ====
/-
  A fused query/key/value projection with a low-rank update, against its plain reference.

  Reference: out = (x · Wᵀ + b) + [ (x · A_qᵀ) · B_qᵀ | (x · A_kᵀ) · B_kᵀ | (x · A_vᵀ) · B_vᵀ ], the three low-rank products
  laid side by side over the output columns, A_q, A_k, A_v the three 64-row bands of A.
  Kernel: first merge the update into the weight, W' = W + [B_q · A_q ; B_k · A_k ; B_v · A_v] (stacked over the output
  rows), then one tiled product out = x · W'ᵀ + b on a 16 × 12 grid of 1024 × 512 output blocks, the operands narrowed to
  bf16 and the sums taken in f32.

  At the extended reals a narrowing is the identity and a product into a zero accumulator is the plain sum, so the
  kernel's entry (s, o) is Σ_d x[s, d] · (W[o, d] + Σ_r B[o, r] · A[off o + r, d]) + b[o] and the reference's is
  (Σ_d x[s, d] · W[o, d] + b[o]) + Σ_r (Σ_d x[s, d] · A[off o + r, d]) · B[o, r]. The two are equal by distributivity and
  exchanging the two finite sums, laws that hold on the extended reals once every entry of x, W, A and the B's is a real
  number: that is what the precondition (every input finite) gives. The bias needs no finiteness: it is only moved by
  commutativity and associativity of addition.

  The frames: each kernel program runs its twelve host lines and its one region to the end and touches none of the
  seven argument arrays (the region's arrays are host-computed copies); the reference is thirteen host lines. The
  idealization rewrote nothing, so `preserves` has nothing to say.
-/
import proofs.«169632_j49306224558199_1_alg».proof.Defs
import proofs.«169632_j49306224558199_1_alg».proof.Proof.Gen.Kernel
import proofs.«169632_j49306224558199_1_alg».proof.Proof.Gen.KernelIdeal
import proofs.«169632_j49306224558199_1_alg».proof.Proof.Gen.ReferenceIdeal
import proofs.«169632_j49306224558199_1_alg».proof.Proof.Gen.Pre_finite_inputs
import proofs.«169632_j49306224558199_1_alg».proof.Proof.Gen.ReferenceIdeal.Run
import proofs.«169632_j49306224558199_1_alg».proof.Proof.FrameBits
import proofs.«169632_j49306224558199_1_alg».proof.Proof.FrameIdeal
import proofs.«169632_j49306224558199_1_alg».proof.Proof.ValueIdeal
import proofs.«169632_j49306224558199_1_alg».proof.Proof.RefValue
import proofs.«169632_j49306224558199_1_alg».proof.Proof.Bridge
import proofs.«169632_j49306224558199_1_alg».proof.Proof.Finite
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- The reference is host lines only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments, all finite, the kernel ends with the merged form at every
    (s, o) and the reference with the split form; the two are one value. -/
theorem algebraic : Cert.algebraic_KernelIdeal_ReferenceIdeal := by
  intro m ρ m' ρ' hpre hagree
  refine ⟨fun c => Cert.KernelIdeal.Result.resultArr m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨f0, f1, f2, f3, f4, f5, f6⟩ := Cert.Finite.of_pre m hpre c
  rw [Cert.ReferenceIdeal.Read.val_main_v12_eq, Cert.ReferenceIdeal.RefValue.result_eq, a0, a1, a2, a3, a4, a5, a6]
  unfold Cert.KernelIdeal.Result.resultArr
  refine congrArg Cert.Spec.arrOf (funext fun s => funext fun o => ?_)
  exact (Cert.Spec.mergedOut_eq_splitOut _ _ _ _ _ _ _ f0 f1 f3 f4 f5 f6 s o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
